-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S1x10000x10000 : Shape := ⟨3, ![1, 10000, 10000]⟩
abbrev S1x128x128 : Shape := ⟨3, ![1, 128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S1x128x128 : S_.BroadcastsInDim S1x128x128 (![] : Fin 0 → Fin S1x128x128.rank)
  reducesTo_S1x128x128_S_d0_1_2 : S1x128x128.ReducesTo [0, 1, 2] S_

variable [Facts]

def fn {F : FTy → Type} [FloatOps F] (main_arg0 : FVec F S10000x128 .f32) (main_arg1 : FVec F S1x10000x10000 .f32) (main_arg2 : FVec F S1x128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S1x128x128 .f32 := Host.absf main_arg2
  let main_cst_2 : FVec F S_ .f32 := constant S_ .f32 0x7F800000#32
  let main_v10 : FVec F S1x128x128 .f32 := broadcastInDim S1x128x128 ![] bcast_S_S1x128x128 main_cst_2
  let main_v11 : IVec S1x128x128 1 := cmpf .olt main_v9 main_v10
  let main_c_3 : IVec S_ 1 := constantI S_ 1 1#1
  let main_v12 : IVec S_ 1 := (fun x v => Host.reduce IntOp.andi x v reducesTo_S1x128x128_S_d0_1_2 h_S_) main_v11 main_c_3
  let main_v13 : IVec S_ 1 := andi main_v8 main_v12
  main_v13
-- ==== Kernel.lean ====
abbrev S10000x128 : Shape := ⟨2, ![10000, 128]⟩
abbrev S1x10000x10000 : Shape := ⟨3, ![1, 10000, 10000]⟩
abbrev S1x128x128 : Shape := ⟨3, ![1, 128, 128]⟩
abbrev S10000x10000 : Shape := ⟨2, ![10000, 10000]⟩
abbrev S128x128 : Shape := ⟨2, ![128, 128]⟩
abbrev S80x10000 : Shape := ⟨2, ![80, 10000]⟩
abbrev S400x128 : Shape := ⟨2, ![400, 128]⟩
abbrev S80x128 : Shape := ⟨2, ![80, 128]⟩

abbrev nBuf : Space → Nat
  | .hbm => 6
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S1x10000x10000, .f32⟩
  | .hbm, ⟨2, _⟩ => ⟨S1x128x128, .f32⟩
  | .hbm, ⟨3, _⟩ => ⟨S10000x10000, .f32⟩
  | .hbm, ⟨4, _⟩ => ⟨S128x128, .f32⟩
  | .hbm, ⟨5, _⟩ => ⟨S10000x128, .f32⟩
  | .local _ .vmem, ⟨0, _⟩ => ⟨S80x10000, .f32⟩
  | .local _ .vmem, ⟨1, _⟩ => ⟨S80x10000, .f32⟩
  | .local _ .vmem, ⟨2, _⟩ => ⟨S80x10000, .f32⟩
  | .local _ .vmem, ⟨3, _⟩ => ⟨S80x10000, .f32⟩
  | .local _ .vmem, ⟨4, _⟩ => ⟨S80x10000, .f32⟩
  | .local _ .vmem, ⟨5, _⟩ => ⟨S80x10000, .f32⟩
  | .local _ .vmem, ⟨6, _⟩ => ⟨S80x10000, .f32⟩
  | .local _ .vmem, ⟨7, _⟩ => ⟨S80x10000, .f32⟩
  | .local _ .vmem, ⟨8, _⟩ => ⟨S80x10000, .f32⟩
  | .local _ .vmem, ⟨9, _⟩ => ⟨S80x10000, .f32⟩
  | .local _ .vmem, ⟨10, _⟩ => ⟨S10000x128, .f32⟩
  | .local _ .vmem, ⟨11, _⟩ => ⟨S128x128, .f32⟩
  | .local _ .vmem, ⟨12, _⟩ => ⟨S400x128, .f32⟩
  | .local _ .vmem, ⟨13, _⟩ => ⟨S400x128, .f32⟩
  | .local _ .vmem, ⟨14, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c5_i32 : BitVec 32 := 5#32
  let v0 : BitVec 32 := Scalar.muli arg0 c5_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c5_i32 : BitVec 32 := 5#32
  let v0 : BitVec 32 := Scalar.muli arg0 c5_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c5_i32 : BitVec 32 := 5#32
  let v0 : BitVec 32 := Scalar.muli arg0 c5_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c5_i32 : BitVec 32 := 5#32
  let v0 : BitVec 32 := Scalar.muli arg0 c5_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c5_i32 : BitVec 32 := 5#32
  let v0 : BitVec 32 := Scalar.muli arg0 c5_i32
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S10000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1x10000x10000_S10000x10000 : S1x10000x10000.ShapeCasts S10000x10000
  shapeCasts_S1x128x128_S128x128 : S1x128x128.ShapeCasts S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S80x10000_S80x10000_0_0 : ∀ a, (![0, 0] : Fin 2 → Nat) a + S80x10000.size a ≤ S80x10000.size a
  h_S80x10000 : 0 < S80x10000.numel
  shapeCasts_S80x10000_S80x10000 : S80x10000.ShapeCasts S80x10000
  inb_S400x128_S80x128_0_0 : ∀ a, (![0, 0] : Fin 2 → Nat) a + S80x128.size a ≤ S400x128.size a
  h_S80x128 : 0 < S80x128.numel
  inb_S400x128_S80x128_80_0 : ∀ a, (![80, 0] : Fin 2 → Nat) a + S80x128.size a ≤ S400x128.size a
  inb_S400x128_S80x128_160_0 : ∀ a, (![160, 0] : Fin 2 → Nat) a + S80x128.size a ≤ S400x128.size a
  inb_S400x128_S80x128_240_0 : ∀ a, (![240, 0] : Fin 2 → Nat) a + S80x128.size a ≤ S400x128.size a
  inb_S400x128_S80x128_320_0 : ∀ a, (![320, 0] : Fin 2 → Nat) a + S80x128.size a ≤ S400x128.size a
  dot_S10000x128_S128x128_S10000x128_1_0_0_1_n_n_wf : DotDims.WF S10000x128 S128x128 S10000x128 [1] [0] [0] [1] [] []
  dot_S80x10000_S10000x128_S80x128_1_0_0_1_n_n_wf : DotDims.WF S80x10000 S10000x128 S80x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x10000.size a ≤ S10000x10000.size a
  hwx0_0 : ∀ i : grid0.Coords, EltTy.bits .f32 = 32 ∨ (Rect.block (s := S10000x10000) S80x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x10000.size a ≤ S10000x10000.size a
  hwx0_1 : ∀ i : grid0.Coords, EltTy.bits .f32 = 32 ∨ (Rect.block (s := S10000x10000) S80x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x10000.size a ≤ S10000x10000.size a
  hwx0_2 : ∀ i : grid0.Coords, EltTy.bits .f32 = 32 ∨ (Rect.block (s := S10000x10000) S80x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S80x10000.size a ≤ S10000x10000.size a
  hwx0_3 : ∀ i : grid0.Coords, EltTy.bits .f32 = 32 ∨ (Rect.block (s := S10000x10000) S80x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x10000.size a ≤ S10000x10000.size a
  hwx0_4 : ∀ i : grid0.Coords, EltTy.bits .f32 = 32 ∨ (Rect.block (s := S10000x10000) S80x10000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S10000x128.size a
  hwx0_5 : ∀ i : grid0.Coords, EltTy.bits .f32 = 32 ∨ (Rect.block (s := S10000x128) S10000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S80x10000_S10000x128_S80x128_1_0_0_1_n_n : DotDims S80x10000 S10000x128 S80x128 where
  lhsContracting := [1]
  rhsContracting := [0]
  lhsNonContracting := [0]
  rhsNonContracting := [1]
  lhsBatch := []
  rhsBatch := []
  wf := dot_S80x10000_S10000x128_S80x128_1_0_0_1_n_n_wf

abbrev win0_0 : Pipeline.Window sig grid0 :=
  Pipeline.Window.ofSpec (Memref.whole main_v0) S80x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S80x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S80x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S80x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S80x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S10000x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x128 : Shape := ⟨2, ![10000, 128]⟩
abbrev S1x10000x10000 : Shape := ⟨3, ![1, 10000, 10000]⟩
abbrev S1x128x128 : Shape := ⟨3, ![1, 128, 128]⟩
abbrev S10000x10000 : Shape := ⟨2, ![10000, 10000]⟩
abbrev S128x128 : Shape := ⟨2, ![128, 128]⟩
abbrev S1x10000x128 : Shape := ⟨3, ![1, 10000, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S1x10000x10000, .f32⟩
  | .hbm, ⟨2, _⟩ => ⟨S1x128x128, .f32⟩
  | .hbm, ⟨3, _⟩ => ⟨S10000x10000, .f32⟩
  | .hbm, ⟨4, _⟩ => ⟨S128x128, .f32⟩
  | .hbm, ⟨5, _⟩ => ⟨S10000x128, .f32⟩
  | .hbm, ⟨6, _⟩ => ⟨S10000x128, .f32⟩
  | .hbm, ⟨7, _⟩ => ⟨S1x10000x128, .f32⟩
  | .hbm, ⟨8, _⟩ => ⟨S_, .f32⟩
  | .hbm, ⟨9, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  shapeCasts_S1x10000x10000_S10000x10000 : S1x10000x10000.ShapeCasts S10000x10000
  shapeCasts_S1x128x128_S128x128 : S1x128x128.ShapeCasts S128x128
  bcast_S10000x128_S1x10000x128_1_2 : S10000x128.BroadcastsInDim S1x10000x128 (![1, 2] : Fin 2 → Fin S1x10000x128.rank)
  reducesTo_S1x10000x128_S10000x128_d0 : S1x10000x128.ReducesTo [0] S10000x128
  h_S_ : 0 < S_.numel
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.FrameK.Setup.lean ====
/-
  The graph-convolution kernel's program, set up for its frame: the arrays as the pipelined region
  finds them (two reshapes of the arguments run first), the blocks its eight windows read, the first-point test of
  the body, the staging memrefs, and the launch of a region FIVE of whose input windows read one array (the
  adjacency, split by rows among five operands), each holding its own fraction of that array's share.
-/
import proofs.«100516_g74732430950510_cont_9to1_m_36_12_alg».proof.Proof.Gen.Kernel.Launch
import proofs.«100516_g74732430950510_cont_9to1_m_36_12_alg».proof.Proof.Gen.Kernel.Skeleton
import proofs.«100516_g74732430950510_cont_9to1_m_36_12_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers after the two reshapes that precede the region. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshapes write their own results only: the three arguments are as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The first point -/

/-- The body's one branch: taken at the grid's first point. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-! ## The staging memrefs the body is called with -/

abbrev ms0 (t : Fin cfg0.N) : Memref sig .tc .vmem S80x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S80x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S80x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S80x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S80x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S10000x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S400x128 .f32 := win0_7.stage (cfg0.slots t 7)
abbrev hs7 (t : Fin cfg0.N) : (ms7 t).IsWhole := hstage0_7 ((cfg0.slots t 7).cast nbuf0_7)
/-- The scratch that carries the projection x·W from the first point to all later ones. -/
abbrev scM : Memref sig .tc .vmem S10000x128 .bf16 := Memref.whole cc0_scratch0
/-- Views through which the output block's and the scratch's contents are stated. -/
abbrev VO : View sig .tc .vmem S400x128 .f32 := (Memref.whole cc0_stg7_0 : Memref sig .tc .vmem S400x128 .f32).view
abbrev VS : View sig .tc .vmem S10000x128 .bf16 := scM.view

/-- The scoped rest of this kernel is its one scratch buffer. -/
theorem scopedRest_scM (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.FrameK.Run.lean ====
/-
  The kernel body run once on arbitrary whole staging memrefs, in its two cases. At the grid's first point it
  loads x and W, stores the projection x·W (rounded to bf16) into the scratch, reads it back, and stores five
  80-row products A_j·(x·W) into the five 80-row bands of the 400-row output block. At every later point it only
  reads the scratch, which still holds the projection, and stores the same five bands.
-/
import proofs.«100516_g74732430950510_cont_9to1_m_36_12_alg».proof.Proof.FrameK.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first point: the scratch is handed over at anything and left with the pieces the one store wrote; the
    output block is handed over at anything and left with the five bands written. -/
noncomputable def runFirst (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S400x128 .f32) (harg8 : arg8.IsWhole) (arg9 : Memref sig .tc .vmem S10000x128 .bf16) (harg9 : arg9.IsWhole) (hc : cond0 i)
    (x1 x2 x3 x4 x5 : Vec F S80x10000 .f32) (x6 : Vec F S10000x128 .f32) (x7 : Vec F S128x128 .f32) :
    Σ' (L8 : List (View.Piece (Elt F) S400x128 .f32)), { LS : List (View.Piece (Elt F) S10000x128 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, ?_, fun E K => ?run⟩
  case run =>
    simp only [cc0__gcn_kernel_eq_skeleton]; unfold cc0__gcn_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

set_option maxHeartbeats 4000000 in
/-- A later point: the scratch is handed over at the contents `y` the first point left and handed back untouched. -/
noncomputable def runLater (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S400x128 .f32) (harg8 : arg8.IsWhole) (arg9 : Memref sig .tc .vmem S10000x128 .bf16) (harg9 : arg9.IsWhole) (hc : ¬cond0 i)
    (x1 x2 x3 x4 x5 : Vec F S80x10000 .f32) (x6 : Vec F S10000x128 .f32) (x7 : Vec F S128x128 .f32) (y : Vec F S10000x128 .bf16) :
    { L8 : List (View.Piece (Elt F) S400x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare y
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ owns (c : Thread nD τ) arg9 fullShare y) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, fun E K => ?run⟩
  case run =>
    simp only [cc0__gcn_kernel_eq_skeleton]; unfold cc0__gcn_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; isplitr; · ipureintro; exact harg9.read_unread _
    iexact H9

end Cert.Kernel.Hand

end
-- ==== Proof.FrameK.Data.lean ====
/-
  What the pipelined region's buffers hold point by point, and the body obligation. The scratch holds the
  projection x·W from the first point on (`Yc`); the output block after point t is the five 80-row bands the body
  stored there (`outAt`), computed from the five adjacency blocks of the point and the scratch; every input
  window's buffer holds its block of its array.
-/
import proofs.«100516_g74732430950510_cont_9to1_m_36_12_alg».proof.Proof.FrameK.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover their buffers -/

/-- At the first point the five 80-row bands tile the 400-row output block. -/
theorem coverOutF (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S400x128 .f32) (harg8 : arg8.IsWhole) (arg9 : Memref sig .tc .vmem S10000x128 .bf16) (harg9 : arg9.IsWhole) (hc : cond0 i) (x1 x2 x3 x4 x5 : Vec F S80x10000 .f32) (x6 : Vec F S10000x128 .f32) (x7 : Vec F S128x128 .f32) (y : S400x128.Idx) :
    ∃ pc ∈ (runFirst c i arg1 harg1 arg2 harg2 arg3 harg3 arg4 harg4 arg5 harg5 arg6 harg6 arg7 harg7 arg8 harg8 arg9 harg9 hc x1 x2 x3 x4 x5 x6 x7).1, y ∈ pc.1.set :=
  View.cover_of_tiledL (runFirst c i arg1 harg1 arg2 harg2 arg3 harg3 arg4 harg4 arg5 harg5 arg6 harg6 arg7 harg7 arg8 harg8 arg9 harg9 hc x1 x2 x3 x4 x5 x6 x7).1 S80x128.size (by sl_kernel_rfl) y

/-- At the first point the one store of the projection covers the scratch. -/
theorem coverScrF (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S400x128 .f32) (harg8 : arg8.IsWhole) (arg9 : Memref sig .tc .vmem S10000x128 .bf16) (harg9 : arg9.IsWhole) (hc : cond0 i) (x1 x2 x3 x4 x5 : Vec F S80x10000 .f32) (x6 : Vec F S10000x128 .f32) (x7 : Vec F S128x128 .f32) (y : S10000x128.Idx) :
    ∃ pc ∈ (runFirst c i arg1 harg1 arg2 harg2 arg3 harg3 arg4 harg4 arg5 harg5 arg6 harg6 arg7 harg7 arg8 harg8 arg9 harg9 hc x1 x2 x3 x4 x5 x6 x7).2.1, y ∈ pc.1.set :=
  View.cover_of_tiledL (runFirst c i arg1 harg1 arg2 harg2 arg3 harg3 arg4 harg4 arg5 harg5 arg6 harg6 arg7 harg7 arg8 harg8 arg9 harg9 hc x1 x2 x3 x4 x5 x6 x7).2.1 S10000x128.size (by sl_kernel_rfl) y

/-- At a later point the five bands tile the output block likewise. -/
theorem coverOutL (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S400x128 .f32) (harg8 : arg8.IsWhole) (arg9 : Memref sig .tc .vmem S10000x128 .bf16) (harg9 : arg9.IsWhole) (hc : ¬cond0 i) (x1 x2 x3 x4 x5 : Vec F S80x10000 .f32) (x6 : Vec F S10000x128 .f32) (x7 : Vec F S128x128 .f32) (y9 : Vec F S10000x128 .bf16) (y : S400x128.Idx) :
    ∃ pc ∈ (runLater c i arg1 harg1 arg2 harg2 arg3 harg3 arg4 harg4 arg5 harg5 arg6 harg6 arg7 harg7 arg8 harg8 arg9 harg9 hc x1 x2 x3 x4 x5 x6 x7 y9).1, y ∈ pc.1.set :=
  View.cover_of_tiledL (runLater c i arg1 harg1 arg2 harg2 arg3 harg3 arg4 harg4 arg5 harg5 arg6 harg6 arg7 harg7 arg8 harg8 arg9 harg9 hc x1 x2 x3 x4 x5 x6 x7 y9).1 S80x128.size (by sl_kernel_rfl) y

/-- The output block the first point leaves. -/
def outF (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S400x128 .f32) (harg8 : arg8.IsWhole) (arg9 : Memref sig .tc .vmem S10000x128 .bf16) (harg9 : arg9.IsWhole) (hc : cond0 i) (x1 x2 x3 x4 x5 : Vec F S80x10000 .f32) (x6 : Vec F S10000x128 .f32) (x7 : Vec F S128x128 .f32) : Vec F S400x128 .f32 :=
  VO.read (Elt F) (VO.writes (Elt F) VO.junk (runFirst c i arg1 harg1 arg2 harg2 arg3 harg3 arg4 harg4 arg5 harg5 arg6 harg6 arg7 harg7 arg8 harg8 arg9 harg9 hc x1 x2 x3 x4 x5 x6 x7).1)
/-- The scratch the first point leaves. -/
def scrF (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S400x128 .f32) (harg8 : arg8.IsWhole) (arg9 : Memref sig .tc .vmem S10000x128 .bf16) (harg9 : arg9.IsWhole) (hc : cond0 i) (x1 x2 x3 x4 x5 : Vec F S80x10000 .f32) (x6 : Vec F S10000x128 .f32) (x7 : Vec F S128x128 .f32) : Vec F S10000x128 .bf16 :=
  VS.read (Elt F) (VS.writes (Elt F) VS.junk (runFirst c i arg1 harg1 arg2 harg2 arg3 harg3 arg4 harg4 arg5 harg5 arg6 harg6 arg7 harg7 arg8 harg8 arg9 harg9 hc x1 x2 x3 x4 x5 x6 x7).2.1)
/-- The output block a later point leaves, the scratch holding `y9`. -/
def outL (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S400x128 .f32) (harg8 : arg8.IsWhole) (arg9 : Memref sig .tc .vmem S10000x128 .bf16) (harg9 : arg9.IsWhole) (hc : ¬cond0 i) (x1 x2 x3 x4 x5 : Vec F S80x10000 .f32) (x6 : Vec F S10000x128 .f32) (x7 : Vec F S128x128 .f32) (y9 : Vec F S10000x128 .bf16) : Vec F S400x128 .f32 :=
  VO.read (Elt F) (VO.writes (Elt F) VO.junk (runLater c i arg1 harg1 arg2 harg2 arg3 harg3 arg4 harg4 arg5 harg5 arg6 harg6 arg7 harg7 arg8 harg8 arg9 harg9 hc x1 x2 x3 x4 x5 x6 x7 y9).1)

/-! ## Point by point -/

/-- The grid's first point. -/
def t0 : Fin cfg0.N := ⟨0, lt_of_lt_of_eq (Nat.zero_lt_succ 24) (show 25 = cfg0.N from N_0.symm)⟩

/-- The projection the first point leaves in the scratch, which every later point reads. -/
def Yc (c : Dev nD) : Vec F S10000x128 .bf16 :=
  scrF c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM (Memref.isWhole_whole _) ((hcond0 t0).mpr rfl) (iblk m c 0 t0) (iblk m c 1 t0) (iblk m c 2 t0) (iblk m c 3 t0) (iblk m c 4 t0) (iblk m c 5 t0) (iblk m c 6 t0)

/-- The output block after the body at point `t`. -/
def outAt (c : Dev nD) (t : Fin cfg0.N) : Vec F S400x128 .f32 :=
  if h : t.val = 0 then
    outF c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h) (iblk m c 0 t) (iblk m c 1 t) (iblk m c 2 t) (iblk m c 3 t) (iblk m c 4 t) (iblk m c 5 t) (iblk m c 6 t)
  else
    outL c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => h ((hcond0 t).mp hc)) (iblk m c 0 t) (iblk m c 1 t) (iblk m c 2 t) (iblk m c 3 t) (iblk m c 4 t) (iblk m c 5 t) (iblk m c 6 t) (Yc m c)

theorem outAt_first (c : Dev nD) (t : Fin cfg0.N) (h : t.val = 0) :
    outAt m c t = outF c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h) (iblk m c 0 t) (iblk m c 1 t) (iblk m c 2 t) (iblk m c 3 t) (iblk m c 4 t) (iblk m c 5 t) (iblk m c 6 t) := dif_pos h
theorem outAt_later (c : Dev nD) (t : Fin cfg0.N) (h : ¬t.val = 0) :
    outAt m c t = outL c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => h ((hcond0 t).mp hc)) (iblk m c 0 t) (iblk m c 1 t) (iblk m c 2 t) (iblk m c 3 t) (iblk m c 4 t) (iblk m c 5 t) (iblk m c 6 t) (Yc m c) := dif_neg h

/-- The invariant between points: before the first the scratch holds anything, afterwards the projection. -/
def PhiS (c : Dev nD) : ℕ → sProp 𝕄
  | 0 => iprop(∃ d, owns (c : Thread nD τ) scM fullShare d)
  | _ + 1 => owns (c : Thread nD τ) scM fullShare (Yc m c)

theorem PhiS_pos (c : Dev nD) (n : ℕ) (hz : n ≠ 0) : PhiS m c n = owns (c : Thread nD τ) scM fullShare (Yc m c) := by
  cases n with
  | zero => exact absurd rfl hz
  | succ n => rfl

/-- How the adjacency's share is dealt among the five windows that read it: halves of halves. -/
abbrev shareOf : Fin 8 → PosShare TreeShare
  | ⟨0, _⟩ => fullShare.left
  | ⟨1, _⟩ => fullShare.right.left
  | ⟨2, _⟩ => fullShare.right.right.left
  | ⟨3, _⟩ => fullShare.right.right.right.left
  | ⟨4, _⟩ => fullShare.right.right.right.right
  | _ => fullShare

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val
  q w := shareOf w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

/-- Each input window's current buffer holds its block, fetched at the point or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-- The output window is written back at every point: its buffer is fresh each time. -/
theorem before_7 (c : Dev nD) (t : Fin cfg0.N) (d) : (dats m 0 c).before 7 t d = d :=
  (dats m 0 c).before_out_reset 7 rfl t (by
    by_cases h : t.val = 0
    · exact .inl h
    · exact .inr ⟨h, flush0_7 _⟩) d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = owns (c : Thread nD τ) scM fullShare (Yc m c) from rfl]
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [show (dats m 0 c).leavesExact 3 t = owns (c : Thread nD τ) (ms3 t) fullShare ((dats m 0 c).after 3 t) from rfl, after_3]
  rw [show (dats m 0 c).leavesExact 4 t = owns (c : Thread nD τ) (ms4 t) fullShare ((dats m 0 c).after 4 t) from rfl, after_4]
  rw [show (dats m 0 c).leavesExact 5 t = owns (c : Thread nD τ) (ms5 t) fullShare ((dats m 0 c).after 5 t) from rfl, after_5]
  rw [show (dats m 0 c).leavesExact 6 t = owns (c : Thread nD τ) (ms6 t) fullShare ((dats m 0 c).after 6 t) from rfl, after_6]
  rw [show (dats m 0 c).leavesExact 7 t = owns (c : Thread nD τ) (ms7 t) fullShare ((dats m 0 c).after 7 t) from rfl, after_7]
  rw [Phi_castSucc]
  by_cases h0 : t.val = 0
  · rw [outAt_first m c t h0]
    obtain rfl : t = t0 := Fin.ext h0
    rw [show PhiS m c (t0 : Fin cfg0.N).val = iprop(∃ d, owns (c : Thread nD τ) scM fullShare d) from rfl]
    unfold outF Yc scrF
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM (Memref.isWhole_whole _) ((hcond0 t0).mpr rfl) (iblk m c 0 t0) (iblk m c 1 t0) (iblk m c 2 t0) (iblk m c 3 t0) (iblk m c 4 t0) (iblk m c 5 t0) (iblk m c 6 t0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e8, H8⟩, ⟨%es, HS⟩⟩
    isplitl [HS]
    · unfold owns; iexists _; isplitr
      swap; · iexact HS
      ipureintro; exact View.read_writes_of_cover _ _ _ _ _ (coverScrF c _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H8
    ipureintro; exact View.read_writes_of_cover _ _ _ _ _ (coverOutF c _ _ _ _ _ _ _ _ _ _ _ _ _ _ _ _ _ _ _ _ _ _ _ _ _ _ _)
  · rw [outAt_later m c t h0, PhiS_pos m c _ h0]
    unfold outL
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => h0 ((hcond0 t).mp hc)) (iblk m c 0 t) (iblk m c 1 t) (iblk m c 2 t) (iblk m c 3 t) (iblk m c 4 t) (iblk m c 5 t) (iblk m c 6 t) (Yc m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e8, H8⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H8
    ipureintro; exact View.read_writes_of_cover _ _ _ _ _ (coverOutL c _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.FrameK.Launch.lean ====
/-
  The launch: the adjacency's full share is dealt to the five windows that read it, the region runs from the
  proof data to the arrays' final contents, and the three argument arrays end as they began.
-/
import proofs.«100516_g74732430950510_cont_9to1_m_36_12_alg».proof.Proof.FrameK.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are the reshaped adjacency (read by five windows), x, the reshaped
    weight and the result. -/
theorem arrRefs_eq : Finset.univ.image (Pipeline.arrRef spec0) = [main_v0, main_arg0, main_v1, main_v2].toFinset := by decide

/-- The buffers behind the arrays, each whole at the full share, are the eight windows' arrays at their shares: the
    adjacency's full share is halved four times, one part to each of its five windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  have e : (bigSep (Finset.univ.image (Pipeline.arrRef spec0)) fun b => (((c.tc : Thread nD τ).loc b) ↦{fullShare} V m c b : sProp 𝕄))
      = iprop((((c.tc : Thread nD τ).loc main_v0) ↦{fullShare} V m c main_v0) ∗ (((c.tc : Thread nD τ).loc main_arg0) ↦{fullShare} V m c main_arg0)
          ∗ (((c.tc : Thread nD τ).loc main_v1) ↦{fullShare} V m c main_v1) ∗ (((c.tc : Thread nD τ).loc main_v2) ↦{fullShare} V m c main_v2)) :=
    bigSep_eq_bigSepL_of_eq [main_v0, main_arg0, main_v1, main_v2] arrRefs_eq (by decide) _
  rw [e, bigSep_W0]
  iintro ⟨Ha, Hx, Hw, Ho⟩
  ihave Ha := (pointsTo_share (PosShare.mem_left_op_right fullShare)).1 $$ Ha
  icases Ha with ⟨Ha0, Ha⟩
  ihave Ha := (pointsTo_share (PosShare.mem_left_op_right fullShare.right)).1 $$ Ha
  icases Ha with ⟨Ha1, Ha⟩
  ihave Ha := (pointsTo_share (PosShare.mem_left_op_right fullShare.right.right)).1 $$ Ha
  icases Ha with ⟨Ha2, Ha⟩
  ihave Ha := (pointsTo_share (PosShare.mem_left_op_right fullShare.right.right.right)).1 $$ Ha
  icases Ha with ⟨Ha3, Ha4⟩
  isplitl [Ha0]; · rw [(arr_whole0 0).set_eq_univ]; iexact Ha0
  isplitl [Ha1]; · rw [(arr_whole0 1).set_eq_univ]; iexact Ha1
  isplitl [Ha2]; · rw [(arr_whole0 2).set_eq_univ]; iexact Ha2
  isplitl [Ha3]; · rw [(arr_whole0 3).set_eq_univ]; iexact Ha3
  isplitl [Ha4]; · rw [(arr_whole0 4).set_eq_univ]; iexact Ha4
  isplitl [Hx]; · rw [(arr_whole0 5).set_eq_univ]; iexact Hx
  isplitl [Hw]; · rw [(arr_whole0 6).set_eq_univ]; iexact Hw
  rw [(arr_whole0 7).set_eq_univ]; iexact Ho

set_option backward.isDefEq.respectTransparency.types false in
/-- From any memory with zero counters every weakly fair execution of @main terminates, each window's array at
    what the proof data compute and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro HU
      isplitr; · iempintro
      iexact HU)
    (hin := fun c => by
      rw [scopedRest_scM, show (dats m 0 c).Φ 0 = iprop(∃ d, owns (c : Thread nD τ) scM fullShare d) from rfl]
      iintro ⟨-, HR⟩
      iexact HR)
    (hout := fun c => by
      rw [scopedRest_scM, show (dats m 0 c).Φ (Fin.last (cfgs 0).N) = PhiS m c (Fin.last cfg0.N).val from rfl,
        PhiS_pos m c _ (by rw [Fin.val_last]; have : cfg0.N = 25 := N_0; omega)]
      iintro HS
      isplitr; · iempintro
      iexists _; iexact HS)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The three argument arrays end unchanged: x is a window's array that no write-back touches, the adjacency and
    the weight bypass the region (it reads their reshaped copies). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 5).trans (((dats m 0 c).arrAt_in 5 rfl _).trans ((A_eq m c 5).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel.Hand

end
-- ==== Proof.FrameKI.Setup.lean ====
/-
  The graph-convolution kernel's program, set up for its frame: the arrays as the pipelined region
  finds them (two reshapes of the arguments run first), the blocks its eight windows read, the first-point test of
  the body, the staging memrefs, and the launch of a region FIVE of whose input windows read one array (the
  adjacency, split by rows among five operands), each holding its own fraction of that array's share.
-/
import proofs.«100516_g74732430950510_cont_9to1_m_36_12_alg».proof.Proof.Gen.KernelIdeal.Launch
import proofs.«100516_g74732430950510_cont_9to1_m_36_12_alg».proof.Proof.Gen.KernelIdeal.Skeleton
import proofs.«100516_g74732430950510_cont_9to1_m_36_12_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers after the two reshapes that precede the region. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshapes write their own results only: the three arguments are as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The first point -/

/-- The body's one branch: taken at the grid's first point. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-! ## The staging memrefs the body is called with -/

abbrev ms0 (t : Fin cfg0.N) : Memref sig .tc .vmem S80x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S80x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S80x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S80x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S80x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S10000x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S400x128 .f32 := win0_7.stage (cfg0.slots t 7)
abbrev hs7 (t : Fin cfg0.N) : (ms7 t).IsWhole := hstage0_7 ((cfg0.slots t 7).cast nbuf0_7)
/-- The scratch that carries the projection x·W from the first point to all later ones. -/
abbrev scM : Memref sig .tc .vmem S10000x128 .bf16 := Memref.whole cc0_scratch0
/-- Views through which the output block's and the scratch's contents are stated. -/
abbrev VO : View sig .tc .vmem S400x128 .f32 := (Memref.whole cc0_stg7_0 : Memref sig .tc .vmem S400x128 .f32).view
abbrev VS : View sig .tc .vmem S10000x128 .bf16 := scM.view

/-- The scoped rest of this kernel is its one scratch buffer. -/
theorem scopedRest_scM (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.FrameKI.Run.lean ====
/-
  The kernel body run once on arbitrary whole staging memrefs, in its two cases. At the grid's first point it
  loads x and W, stores the projection x·W (rounded to bf16) into the scratch, reads it back, and stores five
  80-row products A_j·(x·W) into the five 80-row bands of the 400-row output block. At every later point it only
  reads the scratch, which still holds the projection, and stores the same five bands.
-/
import proofs.«100516_g74732430950510_cont_9to1_m_36_12_alg».proof.Proof.FrameKI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first point: the scratch is handed over at anything and left with the pieces the one store wrote; the
    output block is handed over at anything and left with the five bands written. -/
noncomputable def runFirst (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S400x128 .f32) (harg8 : arg8.IsWhole) (arg9 : Memref sig .tc .vmem S10000x128 .bf16) (harg9 : arg9.IsWhole) (hc : cond0 i)
    (x1 x2 x3 x4 x5 : Vec F S80x10000 .f32) (x6 : Vec F S10000x128 .f32) (x7 : Vec F S128x128 .f32) :
    Σ' (L8 : List (View.Piece (Elt F) S400x128 .f32)), { LS : List (View.Piece (Elt F) S10000x128 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, ?_, fun E K => ?run⟩
  case run =>
    simp only [cc0__gcn_kernel_eq_skeleton]; unfold cc0__gcn_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

set_option maxHeartbeats 4000000 in
/-- A later point: the scratch is handed over at the contents `y` the first point left and handed back untouched. -/
noncomputable def runLater (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S400x128 .f32) (harg8 : arg8.IsWhole) (arg9 : Memref sig .tc .vmem S10000x128 .bf16) (harg9 : arg9.IsWhole) (hc : ¬cond0 i)
    (x1 x2 x3 x4 x5 : Vec F S80x10000 .f32) (x6 : Vec F S10000x128 .f32) (x7 : Vec F S128x128 .f32) (y : Vec F S10000x128 .bf16) :
    { L8 : List (View.Piece (Elt F) S400x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare y
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ owns (c : Thread nD τ) arg9 fullShare y) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9) K } := by
  refine ⟨?_, fun E K => ?run⟩
  case run =>
    simp only [cc0__gcn_kernel_eq_skeleton]; unfold cc0__gcn_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; isplitr; · ipureintro; exact harg9.read_unread _
    iexact H9

end Cert.KernelIdeal.Hand

end
-- ==== Proof.FrameKI.Data.lean ====
/-
  What the pipelined region's buffers hold point by point, and the body obligation. The scratch holds the
  projection x·W from the first point on (`Yc`); the output block after point t is the five 80-row bands the body
  stored there (`outAt`), computed from the five adjacency blocks of the point and the scratch; every input
  window's buffer holds its block of its array.
-/
import proofs.«100516_g74732430950510_cont_9to1_m_36_12_alg».proof.Proof.FrameKI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover their buffers -/

/-- At the first point the five 80-row bands tile the 400-row output block. -/
theorem coverOutF (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S400x128 .f32) (harg8 : arg8.IsWhole) (arg9 : Memref sig .tc .vmem S10000x128 .bf16) (harg9 : arg9.IsWhole) (hc : cond0 i) (x1 x2 x3 x4 x5 : Vec F S80x10000 .f32) (x6 : Vec F S10000x128 .f32) (x7 : Vec F S128x128 .f32) (y : S400x128.Idx) :
    ∃ pc ∈ (runFirst c i arg1 harg1 arg2 harg2 arg3 harg3 arg4 harg4 arg5 harg5 arg6 harg6 arg7 harg7 arg8 harg8 arg9 harg9 hc x1 x2 x3 x4 x5 x6 x7).1, y ∈ pc.1.set :=
  View.cover_of_tiledL (runFirst c i arg1 harg1 arg2 harg2 arg3 harg3 arg4 harg4 arg5 harg5 arg6 harg6 arg7 harg7 arg8 harg8 arg9 harg9 hc x1 x2 x3 x4 x5 x6 x7).1 S80x128.size (by sl_kernel_rfl) y

/-- At the first point the one store of the projection covers the scratch. -/
theorem coverScrF (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S400x128 .f32) (harg8 : arg8.IsWhole) (arg9 : Memref sig .tc .vmem S10000x128 .bf16) (harg9 : arg9.IsWhole) (hc : cond0 i) (x1 x2 x3 x4 x5 : Vec F S80x10000 .f32) (x6 : Vec F S10000x128 .f32) (x7 : Vec F S128x128 .f32) (y : S10000x128.Idx) :
    ∃ pc ∈ (runFirst c i arg1 harg1 arg2 harg2 arg3 harg3 arg4 harg4 arg5 harg5 arg6 harg6 arg7 harg7 arg8 harg8 arg9 harg9 hc x1 x2 x3 x4 x5 x6 x7).2.1, y ∈ pc.1.set :=
  View.cover_of_tiledL (runFirst c i arg1 harg1 arg2 harg2 arg3 harg3 arg4 harg4 arg5 harg5 arg6 harg6 arg7 harg7 arg8 harg8 arg9 harg9 hc x1 x2 x3 x4 x5 x6 x7).2.1 S10000x128.size (by sl_kernel_rfl) y

/-- At a later point the five bands tile the output block likewise. -/
theorem coverOutL (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S400x128 .f32) (harg8 : arg8.IsWhole) (arg9 : Memref sig .tc .vmem S10000x128 .bf16) (harg9 : arg9.IsWhole) (hc : ¬cond0 i) (x1 x2 x3 x4 x5 : Vec F S80x10000 .f32) (x6 : Vec F S10000x128 .f32) (x7 : Vec F S128x128 .f32) (y9 : Vec F S10000x128 .bf16) (y : S400x128.Idx) :
    ∃ pc ∈ (runLater c i arg1 harg1 arg2 harg2 arg3 harg3 arg4 harg4 arg5 harg5 arg6 harg6 arg7 harg7 arg8 harg8 arg9 harg9 hc x1 x2 x3 x4 x5 x6 x7 y9).1, y ∈ pc.1.set :=
  View.cover_of_tiledL (runLater c i arg1 harg1 arg2 harg2 arg3 harg3 arg4 harg4 arg5 harg5 arg6 harg6 arg7 harg7 arg8 harg8 arg9 harg9 hc x1 x2 x3 x4 x5 x6 x7 y9).1 S80x128.size (by sl_kernel_rfl) y

/-- The output block the first point leaves. -/
def outF (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S400x128 .f32) (harg8 : arg8.IsWhole) (arg9 : Memref sig .tc .vmem S10000x128 .bf16) (harg9 : arg9.IsWhole) (hc : cond0 i) (x1 x2 x3 x4 x5 : Vec F S80x10000 .f32) (x6 : Vec F S10000x128 .f32) (x7 : Vec F S128x128 .f32) : Vec F S400x128 .f32 :=
  VO.read (Elt F) (VO.writes (Elt F) VO.junk (runFirst c i arg1 harg1 arg2 harg2 arg3 harg3 arg4 harg4 arg5 harg5 arg6 harg6 arg7 harg7 arg8 harg8 arg9 harg9 hc x1 x2 x3 x4 x5 x6 x7).1)
/-- The scratch the first point leaves. -/
def scrF (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S400x128 .f32) (harg8 : arg8.IsWhole) (arg9 : Memref sig .tc .vmem S10000x128 .bf16) (harg9 : arg9.IsWhole) (hc : cond0 i) (x1 x2 x3 x4 x5 : Vec F S80x10000 .f32) (x6 : Vec F S10000x128 .f32) (x7 : Vec F S128x128 .f32) : Vec F S10000x128 .bf16 :=
  VS.read (Elt F) (VS.writes (Elt F) VS.junk (runFirst c i arg1 harg1 arg2 harg2 arg3 harg3 arg4 harg4 arg5 harg5 arg6 harg6 arg7 harg7 arg8 harg8 arg9 harg9 hc x1 x2 x3 x4 x5 x6 x7).2.1)
/-- The output block a later point leaves, the scratch holding `y9`. -/
def outL (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S400x128 .f32) (harg8 : arg8.IsWhole) (arg9 : Memref sig .tc .vmem S10000x128 .bf16) (harg9 : arg9.IsWhole) (hc : ¬cond0 i) (x1 x2 x3 x4 x5 : Vec F S80x10000 .f32) (x6 : Vec F S10000x128 .f32) (x7 : Vec F S128x128 .f32) (y9 : Vec F S10000x128 .bf16) : Vec F S400x128 .f32 :=
  VO.read (Elt F) (VO.writes (Elt F) VO.junk (runLater c i arg1 harg1 arg2 harg2 arg3 harg3 arg4 harg4 arg5 harg5 arg6 harg6 arg7 harg7 arg8 harg8 arg9 harg9 hc x1 x2 x3 x4 x5 x6 x7 y9).1)

/-! ## Point by point -/

/-- The grid's first point. -/
def t0 : Fin cfg0.N := ⟨0, lt_of_lt_of_eq (Nat.zero_lt_succ 24) (show 25 = cfg0.N from N_0.symm)⟩

/-- The projection the first point leaves in the scratch, which every later point reads. -/
def Yc (c : Dev nD) : Vec F S10000x128 .bf16 :=
  scrF c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM (Memref.isWhole_whole _) ((hcond0 t0).mpr rfl) (iblk m c 0 t0) (iblk m c 1 t0) (iblk m c 2 t0) (iblk m c 3 t0) (iblk m c 4 t0) (iblk m c 5 t0) (iblk m c 6 t0)

/-- The output block after the body at point `t`. -/
def outAt (c : Dev nD) (t : Fin cfg0.N) : Vec F S400x128 .f32 :=
  if h : t.val = 0 then
    outF c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h) (iblk m c 0 t) (iblk m c 1 t) (iblk m c 2 t) (iblk m c 3 t) (iblk m c 4 t) (iblk m c 5 t) (iblk m c 6 t)
  else
    outL c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => h ((hcond0 t).mp hc)) (iblk m c 0 t) (iblk m c 1 t) (iblk m c 2 t) (iblk m c 3 t) (iblk m c 4 t) (iblk m c 5 t) (iblk m c 6 t) (Yc m c)

theorem outAt_first (c : Dev nD) (t : Fin cfg0.N) (h : t.val = 0) :
    outAt m c t = outF c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h) (iblk m c 0 t) (iblk m c 1 t) (iblk m c 2 t) (iblk m c 3 t) (iblk m c 4 t) (iblk m c 5 t) (iblk m c 6 t) := dif_pos h
theorem outAt_later (c : Dev nD) (t : Fin cfg0.N) (h : ¬t.val = 0) :
    outAt m c t = outL c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => h ((hcond0 t).mp hc)) (iblk m c 0 t) (iblk m c 1 t) (iblk m c 2 t) (iblk m c 3 t) (iblk m c 4 t) (iblk m c 5 t) (iblk m c 6 t) (Yc m c) := dif_neg h

/-- The invariant between points: before the first the scratch holds anything, afterwards the projection. -/
def PhiS (c : Dev nD) : ℕ → sProp 𝕄
  | 0 => iprop(∃ d, owns (c : Thread nD τ) scM fullShare d)
  | _ + 1 => owns (c : Thread nD τ) scM fullShare (Yc m c)

theorem PhiS_pos (c : Dev nD) (n : ℕ) (hz : n ≠ 0) : PhiS m c n = owns (c : Thread nD τ) scM fullShare (Yc m c) := by
  cases n with
  | zero => exact absurd rfl hz
  | succ n => rfl

/-- How the adjacency's share is dealt among the five windows that read it: halves of halves. -/
abbrev shareOf : Fin 8 → PosShare TreeShare
  | ⟨0, _⟩ => fullShare.left
  | ⟨1, _⟩ => fullShare.right.left
  | ⟨2, _⟩ => fullShare.right.right.left
  | ⟨3, _⟩ => fullShare.right.right.right.left
  | ⟨4, _⟩ => fullShare.right.right.right.right
  | _ => fullShare

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val
  q w := shareOf w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

/-- Each input window's current buffer holds its block, fetched at the point or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-- The output window is written back at every point: its buffer is fresh each time. -/
theorem before_7 (c : Dev nD) (t : Fin cfg0.N) (d) : (dats m 0 c).before 7 t d = d :=
  (dats m 0 c).before_out_reset 7 rfl t (by
    by_cases h : t.val = 0
    · exact .inl h
    · exact .inr ⟨h, flush0_7 _⟩) d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = owns (c : Thread nD τ) scM fullShare (Yc m c) from rfl]
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [show (dats m 0 c).leavesExact 3 t = owns (c : Thread nD τ) (ms3 t) fullShare ((dats m 0 c).after 3 t) from rfl, after_3]
  rw [show (dats m 0 c).leavesExact 4 t = owns (c : Thread nD τ) (ms4 t) fullShare ((dats m 0 c).after 4 t) from rfl, after_4]
  rw [show (dats m 0 c).leavesExact 5 t = owns (c : Thread nD τ) (ms5 t) fullShare ((dats m 0 c).after 5 t) from rfl, after_5]
  rw [show (dats m 0 c).leavesExact 6 t = owns (c : Thread nD τ) (ms6 t) fullShare ((dats m 0 c).after 6 t) from rfl, after_6]
  rw [show (dats m 0 c).leavesExact 7 t = owns (c : Thread nD τ) (ms7 t) fullShare ((dats m 0 c).after 7 t) from rfl, after_7]
  rw [Phi_castSucc]
  by_cases h0 : t.val = 0
  · rw [outAt_first m c t h0]
    obtain rfl : t = t0 := Fin.ext h0
    rw [show PhiS m c (t0 : Fin cfg0.N).val = iprop(∃ d, owns (c : Thread nD τ) scM fullShare d) from rfl]
    unfold outF Yc scrF
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM (Memref.isWhole_whole _) ((hcond0 t0).mpr rfl) (iblk m c 0 t0) (iblk m c 1 t0) (iblk m c 2 t0) (iblk m c 3 t0) (iblk m c 4 t0) (iblk m c 5 t0) (iblk m c 6 t0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e8, H8⟩, ⟨%es, HS⟩⟩
    isplitl [HS]
    · unfold owns; iexists _; isplitr
      swap; · iexact HS
      ipureintro; exact View.read_writes_of_cover _ _ _ _ _ (coverScrF c _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H8
    ipureintro; exact View.read_writes_of_cover _ _ _ _ _ (coverOutF c _ _ _ _ _ _ _ _ _ _ _ _ _ _ _ _ _ _ _ _ _ _ _ _ _ _ _)
  · rw [outAt_later m c t h0, PhiS_pos m c _ h0]
    unfold outL
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => h0 ((hcond0 t).mp hc)) (iblk m c 0 t) (iblk m c 1 t) (iblk m c 2 t) (iblk m c 3 t) (iblk m c 4 t) (iblk m c 5 t) (iblk m c 6 t) (Yc m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e8, H8⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H8
    ipureintro; exact View.read_writes_of_cover _ _ _ _ _ (coverOutL c _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.FrameKI.Launch.lean ====
/-
  The launch: the adjacency's full share is dealt to the five windows that read it, the region runs from the
  proof data to the arrays' final contents, and the three argument arrays end as they began.
-/
import proofs.«100516_g74732430950510_cont_9to1_m_36_12_alg».proof.Proof.FrameKI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are the reshaped adjacency (read by five windows), x, the reshaped
    weight and the result. -/
theorem arrRefs_eq : Finset.univ.image (Pipeline.arrRef spec0) = [main_v0, main_arg0, main_v1, main_v2].toFinset := by decide

/-- The buffers behind the arrays, each whole at the full share, are the eight windows' arrays at their shares: the
    adjacency's full share is halved four times, one part to each of its five windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  have e : (bigSep (Finset.univ.image (Pipeline.arrRef spec0)) fun b => (((c.tc : Thread nD τ).loc b) ↦{fullShare} V m c b : sProp 𝕄))
      = iprop((((c.tc : Thread nD τ).loc main_v0) ↦{fullShare} V m c main_v0) ∗ (((c.tc : Thread nD τ).loc main_arg0) ↦{fullShare} V m c main_arg0)
          ∗ (((c.tc : Thread nD τ).loc main_v1) ↦{fullShare} V m c main_v1) ∗ (((c.tc : Thread nD τ).loc main_v2) ↦{fullShare} V m c main_v2)) :=
    bigSep_eq_bigSepL_of_eq [main_v0, main_arg0, main_v1, main_v2] arrRefs_eq (by decide) _
  rw [e, bigSep_W0]
  iintro ⟨Ha, Hx, Hw, Ho⟩
  ihave Ha := (pointsTo_share (PosShare.mem_left_op_right fullShare)).1 $$ Ha
  icases Ha with ⟨Ha0, Ha⟩
  ihave Ha := (pointsTo_share (PosShare.mem_left_op_right fullShare.right)).1 $$ Ha
  icases Ha with ⟨Ha1, Ha⟩
  ihave Ha := (pointsTo_share (PosShare.mem_left_op_right fullShare.right.right)).1 $$ Ha
  icases Ha with ⟨Ha2, Ha⟩
  ihave Ha := (pointsTo_share (PosShare.mem_left_op_right fullShare.right.right.right)).1 $$ Ha
  icases Ha with ⟨Ha3, Ha4⟩
  isplitl [Ha0]; · rw [(arr_whole0 0).set_eq_univ]; iexact Ha0
  isplitl [Ha1]; · rw [(arr_whole0 1).set_eq_univ]; iexact Ha1
  isplitl [Ha2]; · rw [(arr_whole0 2).set_eq_univ]; iexact Ha2
  isplitl [Ha3]; · rw [(arr_whole0 3).set_eq_univ]; iexact Ha3
  isplitl [Ha4]; · rw [(arr_whole0 4).set_eq_univ]; iexact Ha4
  isplitl [Hx]; · rw [(arr_whole0 5).set_eq_univ]; iexact Hx
  isplitl [Hw]; · rw [(arr_whole0 6).set_eq_univ]; iexact Hw
  rw [(arr_whole0 7).set_eq_univ]; iexact Ho

set_option backward.isDefEq.respectTransparency.types false in
/-- From any memory with zero counters every weakly fair execution of @main terminates, each window's array at
    what the proof data compute and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro HU
      isplitr; · iempintro
      iexact HU)
    (hin := fun c => by
      rw [scopedRest_scM, show (dats m 0 c).Φ 0 = iprop(∃ d, owns (c : Thread nD τ) scM fullShare d) from rfl]
      iintro ⟨-, HR⟩
      iexact HR)
    (hout := fun c => by
      rw [scopedRest_scM, show (dats m 0 c).Φ (Fin.last (cfgs 0).N) = PhiS m c (Fin.last cfg0.N).val from rfl,
        PhiS_pos m c _ (by rw [Fin.val_last]; have : cfg0.N = 25 := N_0; omega)]
      iintro HS
      isplitr; · iempintro
      iexists _; iexact HS)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The three argument arrays end unchanged: x is a window's array that no write-back touches, the adjacency and
    the weight bypass the region (it reads their reshaped copies). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 5).trans (((dats m 0 c).arrAt_in 5 rfl _).trans ((A_eq m c 5).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.Hand

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.PayVal.lean ====
/-
  The body's arithmetic over the extended reals, entry by entry. Rounding to bf16 changes nothing there, so each
  80-row band the body stores is the plain product of an 80-row slab of the adjacency with the projection, and the
  projection is the plain product of x with W.
-/
import proofs.«100516_g74732430950510_cont_9to1_m_36_12_alg».proof.Proof.Gen.KernelIdeal.Skeleton
import proofs.«100516_g74732430950510_cont_9to1_m_36_12_alg».proof.Proof.LibDense
import Idealize.ShloMosaic.Lib.Pipeline.Value
import Idealize.ShloMosaic.Lib.ValueIdx

noncomputable section

open scoped BigOperators

namespace Cert.KernelIdeal.Hand

open Cert.KernelIdeal Cert.KernelIdeal.Gen Idealize.ShloMosaic Idealize.ShloMosaic.ValueIdx

/-- A slab of 80 adjacency rows (narrowed to bf16) times a [10000,128] matrix, into zeros: entry (p, c) is
    Σ_k slab(p,k) · mat(k,c). -/
theorem band_sum (h1 : S80x10000.ShapeCasts S80x10000) (hlt : FTy.bits .bf16 < FTy.bits .f32)
    (v3 : FVec Ideal S10000x128 .bf16) (x : FVec Ideal S80x10000 .f32) (p : Fin 80) (cc : Fin 128) :
    matmul dot_S80x10000_S10000x128_S80x128_1_0_0_1_n_n none (truncf .bf16 (shapeCast S80x10000 x h1) hlt) v3
        (constant S80x128 .f32 0x00000000#32) (ix2 p cc)
      = ∑ k : Fin 10000, x (ix2 p k) * v3 (ix2 k cc) := by
  rw [Cert.Dense.matmul_zero_plain_apply _ rfl rfl rfl rfl rfl rfl, shapeCast_self]
  rfl

theorem pay3_apply (v3 : FVec Ideal S10000x128 .bf16) (x : FVec Ideal S80x10000 .f32) (p : Fin 80) (cc : Fin 128) :
    k0_pay3 (F := Ideal) v3 x (ix2 p cc) = ∑ k : Fin 10000, x (ix2 p k) * v3 (ix2 k cc) :=
  band_sum _ _ v3 x p cc
theorem pay4_apply (v3 : FVec Ideal S10000x128 .bf16) (x : FVec Ideal S80x10000 .f32) (p : Fin 80) (cc : Fin 128) :
    k0_pay4 (F := Ideal) v3 x (ix2 p cc) = ∑ k : Fin 10000, x (ix2 p k) * v3 (ix2 k cc) :=
  band_sum _ _ v3 x p cc
theorem pay5_apply (v3 : FVec Ideal S10000x128 .bf16) (x : FVec Ideal S80x10000 .f32) (p : Fin 80) (cc : Fin 128) :
    k0_pay5 (F := Ideal) v3 x (ix2 p cc) = ∑ k : Fin 10000, x (ix2 p k) * v3 (ix2 k cc) :=
  band_sum _ _ v3 x p cc
theorem pay6_apply (v3 : FVec Ideal S10000x128 .bf16) (x : FVec Ideal S80x10000 .f32) (p : Fin 80) (cc : Fin 128) :
    k0_pay6 (F := Ideal) v3 x (ix2 p cc) = ∑ k : Fin 10000, x (ix2 p k) * v3 (ix2 k cc) :=
  band_sum _ _ v3 x p cc
/-- The fifth band: its slab is narrowed in one payload and multiplied in the next. -/
theorem pay1_apply (v3 : FVec Ideal S10000x128 .bf16) (x : FVec Ideal S80x10000 .f32) (p : Fin 80) (cc : Fin 128) :
    k0_pay1 (F := Ideal) v3 (k0_pay7 (F := Ideal) x) (constant S80x128 .f32 0x00000000#32) (ix2 p cc)
      = ∑ k : Fin 10000, x (ix2 p k) * v3 (ix2 k cc) :=
  band_sum _ _ v3 x p cc

/-- x (narrowed) times W (narrowed) into zeros, narrowed again: entry (k, c) is Σ_l x(k,l) · W(l,c). -/
theorem proj_sum (h1 : S128x128.ShapeCasts S128x128) (h2 : S10000x128.ShapeCasts S10000x128) (hlt : FTy.bits .bf16 < FTy.bits .f32)
    (x6 : FVec Ideal S10000x128 .f32) (x7 : FVec Ideal S128x128 .f32) (k : Fin 10000) (cc : Fin 128) :
    shapeCast S10000x128 (truncf .bf16 (matmul dot_S10000x128_S128x128_S10000x128_1_0_0_1_n_n none (truncf .bf16 x6 hlt)
        (truncf .bf16 (shapeCast S128x128 x7 h1) hlt) (constant S10000x128 .f32 0x00000000#32)) hlt) h2 (ix2 k cc)
      = ∑ l : Fin 128, x6 (ix2 k l) * x7 (ix2 l cc) := by
  rw [shapeCast_self, truncf_apply, Cert.Dense.matmul_zero_plain_apply _ rfl rfl rfl rfl rfl rfl, shapeCast_self]
  rfl

/-- The projection the first point stores. -/
theorem pay2_apply (x6 : FVec Ideal S10000x128 .f32) (x7 : FVec Ideal S128x128 .f32) (k : Fin 10000) (cc : Fin 128) :
    k0_pay2 (F := Ideal) x6 x7 (ix2 k cc) = ∑ l : Fin 128, x6 (ix2 k l) * x7 (ix2 l cc) :=
  proj_sum _ _ _ x6 x7 k cc

end Cert.KernelIdeal.Hand

end
-- ==== Proof.Spec.lean ====
/-
  The graph convolution  out = A · (x · W)  as one function of the three argument arrays, entry by entry over
  the extended reals: the projection of node k onto output feature c is  Σ_l x(k,l) · W(l,c) , and the result at
  (r, c) is  Σ_k A(r,k) · (Σ_l x(k,l) · W(l,c)) . The adjacency and the weight arrive with a leading axis of
  extent one (a stack of one support).
-/
import Idealize.ShloMosaic.PureOps.Ideal.Laws
import Idealize.ShloMosaic.Lib.ValueIdx

noncomputable section

open scoped BigOperators

namespace Cert.GraphConv

open Idealize.ShloMosaic Idealize.ShloMosaic.ValueIdx

/-- Node `k`'s projection onto output feature `c`. -/
def proj (x : (⟨2, ![10000, 128]⟩ : Shape).Idx → EReal) (w3 : (⟨3, ![1, 128, 128]⟩ : Shape).Idx → EReal)
    (k : Fin 10000) (c : Fin 128) : EReal :=
  ∑ l : Fin 128, x (ix2 k l) * w3 (ix3 (0 : Fin 1) l c)

/-- The convolution's entry (r, c). -/
def conv (x : (⟨2, ![10000, 128]⟩ : Shape).Idx → EReal) (a3 : (⟨3, ![1, 10000, 10000]⟩ : Shape).Idx → EReal)
    (w3 : (⟨3, ![1, 128, 128]⟩ : Shape).Idx → EReal) (r : Fin 10000) (c : Fin 128) : EReal :=
  ∑ k : Fin 10000, a3 (ix3 (0 : Fin 1) r k) * proj x w3 k c

/-- The whole result array. -/
def convArr (x : (⟨2, ![10000, 128]⟩ : Shape).Idx → EReal) (a3 : (⟨3, ![1, 10000, 10000]⟩ : Shape).Idx → EReal)
    (w3 : (⟨3, ![1, 128, 128]⟩ : Shape).Idx → EReal) : (⟨2, ![10000, 128]⟩ : Shape).Idx → EReal :=
  fun i => conv x a3 w3 (i 0) (i 1)

theorem convArr_ix2 (x : (⟨2, ![10000, 128]⟩ : Shape).Idx → EReal) (a3 : (⟨3, ![1, 10000, 10000]⟩ : Shape).Idx → EReal)
    (w3 : (⟨3, ![1, 128, 128]⟩ : Shape).Idx → EReal) (r : Fin 10000) (c : Fin 128) :
    convArr x a3 w3 (ix2 r c) = conv x a3 w3 r c := rfl

end Cert.GraphConv

end
-- ==== Proof.BlockVal.lean ====
/-
  What the windows' blocks hold, entry by entry, in terms of the three argument arrays: the adjacency and the
  weight reach the region through reshapes that drop their leading unit axis; window j of the five adjacency
  windows reads, at point t, the 80 rows starting at row (5t + j)·80; the windows of x and W read them whole.
-/
import proofs.«100516_g74732430950510_cont_9to1_m_36_12_alg».proof.Proof.FrameKI.Setup
import proofs.«100516_g74732430950510_cont_9to1_m_36_12_alg».proof.Proof.Spec
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx Cert.GraphConv
open scoped BigOperators

variable (m : (ℓ : Loc nD τ sig) → Buf (Elt Ideal) ℓ) (ρ : Dev nD → PrngReg)

/-- The region finds the adjacency reshaped: the argument without its leading unit axis. -/
theorem V_adj (c : Dev nD) : (V m c main_v0 : S10000x10000.Idx → EReal)
    = shapeCast S10000x10000 (m ((c : Thread nD τ).loc main_arg1)) shapeCasts_S1x10000x10000_S10000x10000 := by
  dsimp only [V, hostOps0]; after_results; rfl

/-- And the weight likewise. -/
theorem V_wgt (c : Dev nD) : (V m c main_v1 : S128x128.Idx → EReal)
    = shapeCast S128x128 (m ((c : Thread nD τ).loc main_arg2)) shapeCasts_S1x128x128_S128x128 := by
  dsimp only [V, hostOps0]; after_results; rfl

theorem adj_apply (c : Dev nD) (r k : Fin 10000) :
    V m c main_v0 (ix2 r k) = m ((c : Thread nD τ).loc main_arg1) (ix3 (0 : Fin 1) r k) := by
  rw [V_adj]
  exact shapeCast_apply _ _ (ix2 r k) (ix3 (0 : Fin 1) r k) (by
    rewrite [Shape.rowMajor_val_three, Shape.rowMajor_val_two]
    show (0 * 10000 + r.val) * 10000 + k.val = r.val * 10000 + k.val; omega)

theorem wgt_apply (c : Dev nD) (l cc : Fin 128) :
    V m c main_v1 (ix2 l cc) = m ((c : Thread nD τ).loc main_arg2) (ix3 (0 : Fin 1) l cc) := by
  rw [V_wgt]
  exact shapeCast_apply _ _ (ix2 l cc) (ix3 (0 : Fin 1) l cc) (by
    rewrite [Shape.rowMajor_val_three, Shape.rowMajor_val_two]
    show (0 * 128 + l.val) * 128 + cc.val = l.val * 128 + cc.val; omega)

/-- Row p of band j of the output block of point t is row (5t + j)·80 + p of the whole result. -/
def bandRow (t : Fin cfg0.N) (j : ℕ) (hj : j < 5) (p : Fin 80) : Fin 10000 :=
  ⟨(t.val * 5 + j) * 80 + p.val, by
    have hN : t.val < 25 := lt_of_lt_of_eq t.isLt N_0
    have hp := p.isLt
    omega⟩

/-- The printed index maps of the five adjacency windows, decided over the grid. -/
theorem idx_facts0 : ∀ t : Fin cfg0.N, win0_0.index t (0 : Fin 2) = t.val * 5 + 0 ∧ win0_0.index t (1 : Fin 2) = 0 :=
  (by decide +kernel : ∀ t : Fin grid0.N, _)
theorem idx_facts1 : ∀ t : Fin cfg0.N, win0_1.index t (0 : Fin 2) = t.val * 5 + 1 ∧ win0_1.index t (1 : Fin 2) = 0 :=
  (by decide +kernel : ∀ t : Fin grid0.N, _)
theorem idx_facts2 : ∀ t : Fin cfg0.N, win0_2.index t (0 : Fin 2) = t.val * 5 + 2 ∧ win0_2.index t (1 : Fin 2) = 0 :=
  (by decide +kernel : ∀ t : Fin grid0.N, _)
theorem idx_facts3 : ∀ t : Fin cfg0.N, win0_3.index t (0 : Fin 2) = t.val * 5 + 3 ∧ win0_3.index t (1 : Fin 2) = 0 :=
  (by decide +kernel : ∀ t : Fin grid0.N, _)
theorem idx_facts4 : ∀ t : Fin cfg0.N, win0_4.index t (0 : Fin 2) = t.val * 5 + 4 ∧ win0_4.index t (1 : Fin 2) = 0 :=
  (by decide +kernel : ∀ t : Fin grid0.N, _)
theorem idx_facts5 : ∀ t : Fin cfg0.N, win0_5.index t (0 : Fin 2) = 0 ∧ win0_5.index t (1 : Fin 2) = 0 :=
  (by decide +kernel : ∀ t : Fin grid0.N, _)
theorem idx_facts6 : ∀ t : Fin cfg0.N, win0_6.index t (0 : Fin 2) = 0 ∧ win0_6.index t (1 : Fin 2) = 0 :=
  (by decide +kernel : ∀ t : Fin grid0.N, _)
theorem idx_facts7 : ∀ t : Fin cfg0.N, win0_7.index t (0 : Fin 2) = t.val ∧ win0_7.index t (1 : Fin 2) = 0 :=
  (by decide +kernel : ∀ t : Fin grid0.N, _)

/-- Window 0's block at point t: the 80 adjacency rows from row (5t+0)·80. -/
theorem blkA0 (c : Dev nD) (t : Fin cfg0.N) (p : Fin 80) (k : Fin 10000) :
    iblk m c 0 t (ix2 p k) = m ((c : Thread nD τ).loc main_arg1) (ix3 (0 : Fin 1) (bandRow t 0 (by decide) p) k) := by
  rw [← adj_apply m c]
  show V m c main_v0 (((cfg0.win 0).blk t).view.emb (ix2 p k)) = _
  refine congrArg (V m c main_v0) (funext fun a => Fin.ext ?_)
  obtain ⟨e0, e1⟩ := idx_facts0 t
  match a with
  | ⟨0, _⟩ => show win0_0.index t (0 : Fin 2) * 80 + 1 * p.val = (t.val * 5 + 0) * 80 + p.val; rw [e0]; omega
  | ⟨1, _⟩ => show win0_0.index t (1 : Fin 2) * 10000 + 1 * k.val = k.val; rw [e1]; omega

/-- Window 1's block at point t: the 80 adjacency rows from row (5t+1)·80. -/
theorem blkA1 (c : Dev nD) (t : Fin cfg0.N) (p : Fin 80) (k : Fin 10000) :
    iblk m c 1 t (ix2 p k) = m ((c : Thread nD τ).loc main_arg1) (ix3 (0 : Fin 1) (bandRow t 1 (by decide) p) k) := by
  rw [← adj_apply m c]
  show V m c main_v0 (((cfg0.win 1).blk t).view.emb (ix2 p k)) = _
  refine congrArg (V m c main_v0) (funext fun a => Fin.ext ?_)
  obtain ⟨e0, e1⟩ := idx_facts1 t
  match a with
  | ⟨0, _⟩ => show win0_1.index t (0 : Fin 2) * 80 + 1 * p.val = (t.val * 5 + 1) * 80 + p.val; rw [e0]; omega
  | ⟨1, _⟩ => show win0_1.index t (1 : Fin 2) * 10000 + 1 * k.val = k.val; rw [e1]; omega

/-- Window 2's block at point t: the 80 adjacency rows from row (5t+2)·80. -/
theorem blkA2 (c : Dev nD) (t : Fin cfg0.N) (p : Fin 80) (k : Fin 10000) :
    iblk m c 2 t (ix2 p k) = m ((c : Thread nD τ).loc main_arg1) (ix3 (0 : Fin 1) (bandRow t 2 (by decide) p) k) := by
  rw [← adj_apply m c]
  show V m c main_v0 (((cfg0.win 2).blk t).view.emb (ix2 p k)) = _
  refine congrArg (V m c main_v0) (funext fun a => Fin.ext ?_)
  obtain ⟨e0, e1⟩ := idx_facts2 t
  match a with
  | ⟨0, _⟩ => show win0_2.index t (0 : Fin 2) * 80 + 1 * p.val = (t.val * 5 + 2) * 80 + p.val; rw [e0]; omega
  | ⟨1, _⟩ => show win0_2.index t (1 : Fin 2) * 10000 + 1 * k.val = k.val; rw [e1]; omega

/-- Window 3's block at point t: the 80 adjacency rows from row (5t+3)·80. -/
theorem blkA3 (c : Dev nD) (t : Fin cfg0.N) (p : Fin 80) (k : Fin 10000) :
    iblk m c 3 t (ix2 p k) = m ((c : Thread nD τ).loc main_arg1) (ix3 (0 : Fin 1) (bandRow t 3 (by decide) p) k) := by
  rw [← adj_apply m c]
  show V m c main_v0 (((cfg0.win 3).blk t).view.emb (ix2 p k)) = _
  refine congrArg (V m c main_v0) (funext fun a => Fin.ext ?_)
  obtain ⟨e0, e1⟩ := idx_facts3 t
  match a with
  | ⟨0, _⟩ => show win0_3.index t (0 : Fin 2) * 80 + 1 * p.val = (t.val * 5 + 3) * 80 + p.val; rw [e0]; omega
  | ⟨1, _⟩ => show win0_3.index t (1 : Fin 2) * 10000 + 1 * k.val = k.val; rw [e1]; omega

/-- Window 4's block at point t: the 80 adjacency rows from row (5t+4)·80. -/
theorem blkA4 (c : Dev nD) (t : Fin cfg0.N) (p : Fin 80) (k : Fin 10000) :
    iblk m c 4 t (ix2 p k) = m ((c : Thread nD τ).loc main_arg1) (ix3 (0 : Fin 1) (bandRow t 4 (by decide) p) k) := by
  rw [← adj_apply m c]
  show V m c main_v0 (((cfg0.win 4).blk t).view.emb (ix2 p k)) = _
  refine congrArg (V m c main_v0) (funext fun a => Fin.ext ?_)
  obtain ⟨e0, e1⟩ := idx_facts4 t
  match a with
  | ⟨0, _⟩ => show win0_4.index t (0 : Fin 2) * 80 + 1 * p.val = (t.val * 5 + 4) * 80 + p.val; rw [e0]; omega
  | ⟨1, _⟩ => show win0_4.index t (1 : Fin 2) * 10000 + 1 * k.val = k.val; rw [e1]; omega

/-- The window of x reads all of x, at every point. -/
theorem blkX (c : Dev nD) (t : Fin cfg0.N) (k : Fin 10000) (l : Fin 128) :
    iblk m c 5 t (ix2 k l) = m ((c : Thread nD τ).loc main_arg0) (ix2 k l) := by
  rw [← V_main_arg0 m c]
  show V m c main_arg0 (((cfg0.win 5).blk t).view.emb (ix2 k l)) = _
  refine congrArg (V m c main_arg0) (funext fun a => Fin.ext ?_)
  obtain ⟨e0, e1⟩ := idx_facts5 t
  match a with
  | ⟨0, _⟩ => show win0_5.index t (0 : Fin 2) * 10000 + 1 * k.val = k.val; rw [e0]; omega
  | ⟨1, _⟩ => show win0_5.index t (1 : Fin 2) * 128 + 1 * l.val = l.val; rw [e1]; omega

/-- The window of W reads all of the reshaped weight, at every point. -/
theorem blkW (c : Dev nD) (t : Fin cfg0.N) (l cc : Fin 128) :
    iblk m c 6 t (ix2 l cc) = m ((c : Thread nD τ).loc main_arg2) (ix3 (0 : Fin 1) l cc) := by
  rw [← wgt_apply m c]
  show V m c main_v1 (((cfg0.win 6).blk t).view.emb (ix2 l cc)) = _
  refine congrArg (V m c main_v1) (funext fun a => Fin.ext ?_)
  obtain ⟨e0, e1⟩ := idx_facts6 t
  match a with
  | ⟨0, _⟩ => show win0_6.index t (0 : Fin 2) * 128 + 1 * l.val = l.val; rw [e0]; omega
  | ⟨1, _⟩ => show win0_6.index t (1 : Fin 2) * 128 + 1 * cc.val = cc.val; rw [e1]; omega

end Cert.KernelIdeal.Hand

end
-- ==== Proof.OutVal.lean ====
/-
  What the body leaves, as values over the extended reals. The scratch after the first point holds the projection
  x·W; the output block after point t holds, in band j (rows 80j … 80j+79), the product of adjacency rows
  (5t+j)·80 … with the projection: row q of the block is row 400t + q of the convolution.
-/
import proofs.«100516_g74732430950510_cont_9to1_m_36_12_alg».proof.Proof.FrameKI.Data
import proofs.«100516_g74732430950510_cont_9to1_m_36_12_alg».proof.Proof.PayVal
import proofs.«100516_g74732430950510_cont_9to1_m_36_12_alg».proof.Proof.BlockVal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx Cert.GraphConv
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- The five bands as stores, last first: band j is slab j times the scratch's contents `Y`. -/
def bandPieces (Y : FVec Ideal S10000x128 .bf16) (x1 x2 x3 x4 x5 : FVec Ideal S80x10000 .f32) :
    List (View.Piece (Elt Ideal) S400x128 .f32) :=
  [⟨Rect.unit (s := S400x128) ![320, 0] S80x128.size inb_S400x128_S80x128_320_0,
      k0_pay1 (F := Ideal) Y (k0_pay7 (F := Ideal) x5) (constant S80x128 .f32 0x00000000#32)⟩,
   ⟨Rect.unit (s := S400x128) ![240, 0] S80x128.size inb_S400x128_S80x128_240_0, k0_pay6 (F := Ideal) Y x4⟩,
   ⟨Rect.unit (s := S400x128) ![160, 0] S80x128.size inb_S400x128_S80x128_160_0, k0_pay5 (F := Ideal) Y x3⟩,
   ⟨Rect.unit (s := S400x128) ![80, 0] S80x128.size inb_S400x128_S80x128_80_0, k0_pay4 (F := Ideal) Y x2⟩,
   ⟨Rect.unit (s := S400x128) ![0, 0] S80x128.size inb_S400x128_S80x128_0_0, k0_pay3 (F := Ideal) Y x1⟩]

section Pieces
variable (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S10000x128 .f32) (harg6 : arg6.IsWhole) (arg7 : Memref sig .tc .vmem S128x128 .f32) (harg7 : arg7.IsWhole) (arg8 : Memref sig .tc .vmem S400x128 .f32) (harg8 : arg8.IsWhole) (arg9 : Memref sig .tc .vmem S10000x128 .bf16) (harg9 : arg9.IsWhole)
variable (x1 x2 x3 x4 x5 : FVec Ideal S80x10000 .f32) (x6 : FVec Ideal S10000x128 .f32) (x7 : FVec Ideal S128x128 .f32)

/-- The first point's one store into the scratch writes the projection of the loaded x and W. -/
theorem piecesScrF (hc : cond0 i) :
    (runFirst (F := Ideal) c i arg1 harg1 arg2 harg2 arg3 harg3 arg4 harg4 arg5 harg5 arg6 harg6 arg7 harg7 arg8 harg8 arg9 harg9 hc x1 x2 x3 x4 x5 x6 x7).2.1
      = [⟨Rect.unit (s := S10000x128) ![0, 0] S10000x128.size inb_S10000x128_S10000x128_0_0, k0_pay2 (F := Ideal) x6 x7⟩] := by
  unfold runFirst; dsimp only; sl_unfold_words
  simp only [View.readAt_eq_ld, harg1.read_unread, harg2.read_unread, harg3.read_unread, harg4.read_unread, harg5.read_unread, harg6.read_unread, harg7.read_unread, View.ld_unit_zero (S := S10000x128) hz, View.ld_unit_zero (S := S128x128) hz]
  try rfl

/-- Its five stores into the output block are the bands over the projection just stored (read back). -/
theorem piecesOutF (hc : cond0 i) :
    (runFirst (F := Ideal) c i arg1 harg1 arg2 harg2 arg3 harg3 arg4 harg4 arg5 harg5 arg6 harg6 arg7 harg7 arg8 harg8 arg9 harg9 hc x1 x2 x3 x4 x5 x6 x7).1 = bandPieces (k0_pay2 (F := Ideal) x6 x7) x1 x2 x3 x4 x5 := by
  unfold runFirst bandPieces; dsimp only; sl_unfold_words
  simp only [View.readAt_eq_ld, harg1.read_unread, harg2.read_unread, harg3.read_unread, harg4.read_unread, harg5.read_unread, harg6.read_unread, harg7.read_unread, View.ld_unit_zero (S := S10000x128) hz, View.ld_unit_zero (S := S128x128) hz,
    View.ld_unit_zero (S := S80x10000) hz, View.readCov_unit_zero (S := S10000x128) _ hz]
  try rfl

/-- A later point's five stores are the bands over the scratch as handed over. -/
theorem piecesOutL (hc : ¬cond0 i) (y9 : FVec Ideal S10000x128 .bf16) :
    (runLater (F := Ideal) c i arg1 harg1 arg2 harg2 arg3 harg3 arg4 harg4 arg5 harg5 arg6 harg6 arg7 harg7 arg8 harg8 arg9 harg9 hc x1 x2 x3 x4 x5 x6 x7 y9).1 = bandPieces y9 x1 x2 x3 x4 x5 := by
  unfold runLater bandPieces; dsimp only; sl_unfold_words
  simp only [View.readAt_eq_ld, harg1.read_unread, harg2.read_unread, harg3.read_unread, harg4.read_unread, harg5.read_unread, harg6.read_unread, harg7.read_unread, harg9.read_unread, View.ld_unit_zero (S := S10000x128) hz,
    View.ld_unit_zero (S := S80x10000) hz]
  try rfl

end Pieces

/-- The bands read back: where band j, row p is entry (80j + p) of a function `Gb` of the block's index, the five
    stores leave `Gb` at every index they cover. -/
theorem bands_apply (Y : FVec Ideal S10000x128 .bf16) (x1 x2 x3 x4 x5 : FVec Ideal S80x10000 .f32) (Gb : S400x128.Idx → EReal)
    (h1 : ∀ (p : Fin 80) (cc : Fin 128), (∑ k : Fin 10000, x1 (ix2 p k) * Y (ix2 k cc)) = Gb (ix2 (⟨0 + p.val, by omega⟩ : Fin 400) cc))
    (h2 : ∀ (p : Fin 80) (cc : Fin 128), (∑ k : Fin 10000, x2 (ix2 p k) * Y (ix2 k cc)) = Gb (ix2 (⟨80 + p.val, by omega⟩ : Fin 400) cc))
    (h3 : ∀ (p : Fin 80) (cc : Fin 128), (∑ k : Fin 10000, x3 (ix2 p k) * Y (ix2 k cc)) = Gb (ix2 (⟨160 + p.val, by omega⟩ : Fin 400) cc))
    (h4 : ∀ (p : Fin 80) (cc : Fin 128), (∑ k : Fin 10000, x4 (ix2 p k) * Y (ix2 k cc)) = Gb (ix2 (⟨240 + p.val, by omega⟩ : Fin 400) cc))
    (h5 : ∀ (p : Fin 80) (cc : Fin 128), (∑ k : Fin 10000, x5 (ix2 p k) * Y (ix2 k cc)) = Gb (ix2 (⟨320 + p.val, by omega⟩ : Fin 400) cc))
    (y : S400x128.Idx) (hy : ∃ pc ∈ bandPieces Y x1 x2 x3 x4 x5, y ∈ pc.1.set) :
    View.canon (bandPieces Y x1 x2 x3 x4 x5) y = Gb y := by
  refine View.canon_apply_of_pieces Gb _ (fun pc hpc x => ?_) y hy
  simp only [bandPieces, List.mem_cons, List.mem_nil_iff, or_false] at hpc
  rcases hpc with rfl | rfl | rfl | rfl | rfl
  · obtain ⟨p, cc, rfl⟩ : ∃ (p : Fin 80) (cc : Fin 128), x = ix2 p cc := ⟨x 0, x 1, eq_ix2 x⟩
    refine (pay1_apply Y x5 p cc).trans ((h5 p cc).trans (congrArg Gb (funext fun a => Fin.ext ?_)))
    match a with
    | ⟨0, _⟩ => show 320 + p.val = 320 + 1 * p.val; omega
    | ⟨1, _⟩ => show cc.val = 0 + 1 * cc.val; omega
  · obtain ⟨p, cc, rfl⟩ : ∃ (p : Fin 80) (cc : Fin 128), x = ix2 p cc := ⟨x 0, x 1, eq_ix2 x⟩
    refine (pay6_apply Y x4 p cc).trans ((h4 p cc).trans (congrArg Gb (funext fun a => Fin.ext ?_)))
    match a with
    | ⟨0, _⟩ => show 240 + p.val = 240 + 1 * p.val; omega
    | ⟨1, _⟩ => show cc.val = 0 + 1 * cc.val; omega
  · obtain ⟨p, cc, rfl⟩ : ∃ (p : Fin 80) (cc : Fin 128), x = ix2 p cc := ⟨x 0, x 1, eq_ix2 x⟩
    refine (pay5_apply Y x3 p cc).trans ((h3 p cc).trans (congrArg Gb (funext fun a => Fin.ext ?_)))
    match a with
    | ⟨0, _⟩ => show 160 + p.val = 160 + 1 * p.val; omega
    | ⟨1, _⟩ => show cc.val = 0 + 1 * cc.val; omega
  · obtain ⟨p, cc, rfl⟩ : ∃ (p : Fin 80) (cc : Fin 128), x = ix2 p cc := ⟨x 0, x 1, eq_ix2 x⟩
    refine (pay4_apply Y x2 p cc).trans ((h2 p cc).trans (congrArg Gb (funext fun a => Fin.ext ?_)))
    match a with
    | ⟨0, _⟩ => show 80 + p.val = 80 + 1 * p.val; omega
    | ⟨1, _⟩ => show cc.val = 0 + 1 * cc.val; omega
  · obtain ⟨p, cc, rfl⟩ : ∃ (p : Fin 80) (cc : Fin 128), x = ix2 p cc := ⟨x 0, x 1, eq_ix2 x⟩
    refine (pay3_apply Y x1 p cc).trans ((h1 p cc).trans (congrArg Gb (funext fun a => Fin.ext ?_)))
    match a with
    | ⟨0, _⟩ => show 0 + p.val = 0 + 1 * p.val; omega
    | ⟨1, _⟩ => show cc.val = 0 + 1 * cc.val; omega

/-! ## At the grid's points -/

/-- The blocks at literal types. -/
abbrev ab0 (c : Dev nD) (t : Fin cfg0.N) : FVec Ideal S80x10000 .f32 := iblk m c 0 t
abbrev ab1 (c : Dev nD) (t : Fin cfg0.N) : FVec Ideal S80x10000 .f32 := iblk m c 1 t
abbrev ab2 (c : Dev nD) (t : Fin cfg0.N) : FVec Ideal S80x10000 .f32 := iblk m c 2 t
abbrev ab3 (c : Dev nD) (t : Fin cfg0.N) : FVec Ideal S80x10000 .f32 := iblk m c 3 t
abbrev ab4 (c : Dev nD) (t : Fin cfg0.N) : FVec Ideal S80x10000 .f32 := iblk m c 4 t
abbrev xb (c : Dev nD) (t : Fin cfg0.N) : FVec Ideal S10000x128 .f32 := iblk m c 5 t
abbrev wb (c : Dev nD) (t : Fin cfg0.N) : FVec Ideal S128x128 .f32 := iblk m c 6 t

/-- The projection of the loaded x and W, whatever the point: entry (k, c) of x·W. -/
theorem projBlk_apply (c : Dev nD) (t : Fin cfg0.N) (k : Fin 10000) (cc : Fin 128) :
    k0_pay2 (F := Ideal) (xb m c t) (wb m c t) (ix2 k cc)
      = proj (m ((c : Thread nD τ).loc main_arg0)) (m ((c : Thread nD τ).loc main_arg2)) k cc := by
  refine (pay2_apply (xb m c t) (wb m c t) k cc).trans ?_
  unfold proj
  refine Finset.sum_congr rfl fun l _ => ?_
  rw [show xb m c t (ix2 k l) = _ from blkX m c t k l, show wb m c t (ix2 l cc) = _ from blkW m c t l cc]

/-- The scratch from the first point on: the projection. -/
theorem Yc_eq (c : Dev nD) : Yc m c = k0_pay2 (F := Ideal) (xb m c t0) (wb m c t0) := by
  unfold Yc scrF
  rw [View.read_writes_junk_eq_canon, piecesScrF, View.canon_unit_zero hz]

theorem Yc_apply (c : Dev nD) (k : Fin 10000) (cc : Fin 128) :
    Yc m c (ix2 k cc) = proj (m ((c : Thread nD τ).loc main_arg0)) (m ((c : Thread nD τ).loc main_arg2)) k cc := by
  rw [Yc_eq]; exact projBlk_apply m c t0 k cc

/-- Row `q` of point `t`'s output block is row 400t + q of the result. -/
def outRow (t : Fin cfg0.N) (q : ℕ) (hq : q < 400) : Fin 10000 :=
  ⟨t.val * 400 + q, by have hN : t.val < 25 := lt_of_lt_of_eq t.isLt N_0; omega⟩

/-- The convolution's rows 400t … 400t+399, as a function of the block's index. -/
def convBlk (c : Dev nD) (t : Fin cfg0.N) : S400x128.Idx → EReal := fun y =>
  conv (m ((c : Thread nD τ).loc main_arg0)) (m ((c : Thread nD τ).loc main_arg1)) (m ((c : Thread nD τ).loc main_arg2))
    (outRow t (y 0).val (idx2_lt0 y)) ⟨(y 1).val, idx2_lt1 y⟩

/-- One band against a scratch holding the projection is 80 rows of the convolution. -/
theorem band_conv (c : Dev nD) (t : Fin cfg0.N) (j : ℕ) (hj : j < 5) (xj : FVec Ideal S80x10000 .f32) (Y : FVec Ideal S10000x128 .bf16)
    (hx : ∀ (p : Fin 80) (k : Fin 10000), xj (ix2 p k) = m ((c : Thread nD τ).loc main_arg1) (ix3 (0 : Fin 1) (bandRow t j hj p) k))
    (hY : ∀ (k : Fin 10000) (cc : Fin 128), Y (ix2 k cc) = proj (m ((c : Thread nD τ).loc main_arg0)) (m ((c : Thread nD τ).loc main_arg2)) k cc)
    (p : Fin 80) (cc : Fin 128) (hq : 80 * j + p.val < 400) :
    (∑ k : Fin 10000, xj (ix2 p k) * Y (ix2 k cc)) = convBlk m c t (ix2 (⟨80 * j + p.val, hq⟩ : Fin 400) cc) := by
  unfold convBlk conv
  have hr : bandRow t j hj p = outRow t (80 * j + p.val) hq := Fin.ext (by show (t.val * 5 + j) * 80 + p.val = t.val * 400 + (80 * j + p.val); omega)
  refine Finset.sum_congr rfl fun k _ => ?_
  rw [hx, hY, hr]

/-- The output block after point `t`, entry by entry: the convolution's rows 400t … 400t+399. -/
theorem outAt_apply (c : Dev nD) (t : Fin cfg0.N) (y : S400x128.Idx) : outAt m c t y = convBlk m c t y := by
  by_cases h : t.val = 0
  · rw [outAt_first m c t h]
    unfold outF
    rw [View.read_writes_junk_eq_canon]
    have hcov := coverOutF (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h) (ab0 m c t) (ab1 m c t) (ab2 m c t) (ab3 m c t) (ab4 m c t) (xb m c t) (wb m c t) y
    rw [piecesOutF] at hcov ⊢
    exact bands_apply _ _ _ _ _ _ (convBlk m c t)
      (fun p cc => band_conv m c t 0 (by omega) _ _ (blkA0 m c t) (projBlk_apply m c t) p cc (by omega))
      (fun p cc => band_conv m c t 1 (by omega) _ _ (blkA1 m c t) (projBlk_apply m c t) p cc (by omega))
      (fun p cc => band_conv m c t 2 (by omega) _ _ (blkA2 m c t) (projBlk_apply m c t) p cc (by omega))
      (fun p cc => band_conv m c t 3 (by omega) _ _ (blkA3 m c t) (projBlk_apply m c t) p cc (by omega))
      (fun p cc => band_conv m c t 4 (by omega) _ _ (blkA4 m c t) (projBlk_apply m c t) p cc (by omega))
      y hcov
  · rw [outAt_later m c t h]
    unfold outL
    rw [View.read_writes_junk_eq_canon]
    have hcov := coverOutL (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => h ((hcond0 t).mp hc)) (ab0 m c t) (ab1 m c t) (ab2 m c t) (ab3 m c t) (ab4 m c t) (xb m c t) (wb m c t) (Yc m c) y
    rw [piecesOutL] at hcov ⊢
    exact bands_apply _ _ _ _ _ _ (convBlk m c t)
      (fun p cc => band_conv m c t 0 (by omega) _ _ (blkA0 m c t) (Yc_apply m c) p cc (by omega))
      (fun p cc => band_conv m c t 1 (by omega) _ _ (blkA1 m c t) (Yc_apply m c) p cc (by omega))
      (fun p cc => band_conv m c t 2 (by omega) _ _ (blkA2 m c t) (Yc_apply m c) p cc (by omega))
      (fun p cc => band_conv m c t 3 (by omega) _ _ (blkA3 m c t) (Yc_apply m c) p cc (by omega))
      (fun p cc => band_conv m c t 4 (by omega) _ _ (blkA4 m c t) (Yc_apply m c) p cc (by omega))
      y hcov

end Cert.KernelIdeal.Hand

end
-- ==== Proof.Final.lean ====
/-
  The whole result array after the run: every row lies in exactly one point's 400-row block, and each block written
  back is that block of the convolution, so the result buffer ends holding the convolution of the three arguments.
-/
import proofs.«100516_g74732430950510_cont_9to1_m_36_12_alg».proof.Proof.FrameKI.Launch
import proofs.«100516_g74732430950510_cont_9to1_m_36_12_alg».proof.Proof.OutVal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx Cert.GraphConv
open scoped BigOperators

variable (m : (ℓ : Loc nD τ sig) → Buf (Elt Ideal) ℓ) (ρ : Dev nD → PrngReg)

/-- The convolution of core `c`'s three argument arrays. -/
def convFull (c : Dev nD) : S10000x128.Idx → EReal :=
  convArr (m ((c : Thread nD τ).loc main_arg0)) (m ((c : Thread nD τ).loc main_arg1)) (m ((c : Thread nD τ).loc main_arg2))

/-- What point `t` writes back is block `t` of the convolution. -/
theorem flushed_eq (c : Dev nD) (t : Fin cfg0.N) :
    (dats m 0 c).flushed 7 t = ((cfg0.win 7).blk t).view.read (Elt Ideal) (convFull m c) := by
  show (cfg0.win 7).cut (grid0.coords t) ((dats m 0 c).after 7 t) = _
  rw [after_7]
  funext y
  show outAt m c t y = convFull m c (((cfg0.win 7).blk t).view.emb y)
  rw [outAt_apply]
  unfold convBlk convFull convArr
  obtain ⟨e0, e1⟩ := idx_facts7 t
  refine congrArg₂ (conv _ _ _) (Fin.ext ?_) (Fin.ext ?_)
  · show t.val * 400 + (y 0).val = win0_7.index t (0 : Fin 2) * 400 + 1 * (y 0).val; rw [e0]; omega
  · show (y 1).val = win0_7.index t (1 : Fin 2) * 128 + 1 * (y 1).val; rw [e1]; omega

/-- An index of the result is in point `t`'s block iff each coordinate is in the block's range on its axis. -/
theorem mem_blk7 (t : Fin cfg0.N) (i : S10000x128.Idx) :
    i ∈ ((cfg0.win 7).blk t).view.set ↔ ∀ a : Fin 2, win0_7.index t a * S400x128.size a ≤ (i a).val ∧ (i a).val < win0_7.index t a * S400x128.size a + S400x128.size a := by
  show i ∈ ((View.whole main_v2).slice (win0_7.rect t)).set ↔ _
  rw [View.set_slice_whole, Rect.mem_set_unit]
  exact Iff.rfl

/-- Row r lies in the block of point r / 400. -/
theorem cover7 (i : S10000x128.Idx) : ∃ t : Fin cfg0.N, (cfg0.win 7).flush t = true ∧ i ∈ ((cfg0.win 7).blk t).view.set := by
  have hi0 : (i 0).val < 10000 := idx2_lt0 i
  have hi1 : (i 1).val < 128 := idx2_lt1 i
  let t : Fin cfg0.N := ⟨(i 0).val / 400, lt_of_lt_of_eq (by omega : (i 0).val / 400 < 25) N_0.symm⟩
  have ht : t.val = (i 0).val / 400 := rfl
  obtain ⟨e0, e1⟩ := idx_facts7 t
  refine ⟨t, flush0_7 t, ?_⟩
  rw [mem_blk7]
  intro a
  match a with
  | ⟨0, _⟩ => show win0_7.index t (0 : Fin 2) * 400 ≤ (i 0).val ∧ (i 0).val < win0_7.index t (0 : Fin 2) * 400 + 400; rw [e0, ht]; omega
  | ⟨1, _⟩ => show win0_7.index t (1 : Fin 2) * 128 ≤ (i 1).val ∧ (i 1).val < win0_7.index t (1 : Fin 2) * 128 + 128; rw [e1]; omega

/-- The result buffer after the run. -/
theorem final (c : Dev nD) : (dats m 0 c).arrAt 7 cfg0.N = convFull m c :=
  (dats m 0 c).arrAt_eq_of_cover 7 (convFull m c) (fun t _ => flushed_eq m c t) (cover7)

/-- The run, read: the result is the convolution and the arguments are unchanged. -/
theorem run_value : θ_run defs (onTc (τ := τ) (main (F := Ideal))) ⟨m, fun _ => 0, ρ⟩ (fun r => ∀ c : Dev nD,
      r.2.mem ((c.tc : Thread nD τ).loc main_v2) = convFull m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 7).trans (final m c),
      ((h c).1 5).trans (((dats m 0 c).arrAt_in 5 rfl _).trans ((A_eq m c 5).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.Hand

end
-- ==== Proof.RefSide.lean ====
/-
  The reference computes the convolution: its two general products are the two sums of the specification, the
  reshapes drop the leading unit axis, and the closing sum over the stack of one support adds zero to the one term.
-/
import proofs.«100516_g74732430950510_cont_9to1_m_36_12_alg».proof.Proof.Gen.ReferenceIdeal.Run
import proofs.«100516_g74732430950510_cont_9to1_m_36_12_alg».proof.Proof.Gen.ReferenceIdeal.Read
import proofs.«100516_g74732430950510_cont_9to1_m_36_12_alg».proof.Proof.Spec

noncomputable section

open scoped BigOperators

namespace Cert.ReferenceIdeal.RefValue

open Cert.ReferenceIdeal Cert.ReferenceIdeal.Read Idealize.ShloMosaic Idealize.ShloMosaic.ValueIdx Cert.GraphConv

/-- Dropping the adjacency's leading unit axis: entry (r, k) is entry (0, r, k). -/
theorem adj_apply (x1 : (⟨S1x10000x10000, .f32⟩ : BufTy).Contents (Elt Ideal)) (r k : Fin 10000) :
    val_main_v0 (F := Ideal) x1 (ix2 r k) = x1 (ix3 (0 : Fin 1) r k) := by
  rw [val_main_v0_apply]
  refine congrArg x1 (funext fun a => Fin.ext ?_)
  have hr := r.isLt; have hk := k.isLt
  match a with
  | ⟨0, _⟩ => rfl
  | ⟨1, _⟩ => show (r.val * 10000 + k.val) / 10000 % 10000 = r.val; omega
  | ⟨2, _⟩ => show (r.val * 10000 + k.val) % 10000 = k.val; omega

/-- Dropping the weight's leading unit axis likewise. -/
theorem wgt_apply (x2 : (⟨S1x128x128, .f32⟩ : BufTy).Contents (Elt Ideal)) (l c : Fin 128) :
    val_main_v1 (F := Ideal) x2 (ix2 l c) = x2 (ix3 (0 : Fin 1) l c) := by
  rw [val_main_v1_apply]
  refine congrArg x2 (funext fun a => Fin.ext ?_)
  have hl := l.isLt; have hc := c.isLt
  match a with
  | ⟨0, _⟩ => rfl
  | ⟨1, _⟩ => show (l.val * 128 + c.val) / 128 % 128 = l.val; omega
  | ⟨2, _⟩ => show (l.val * 128 + c.val) % 128 = c.val; omega

/-- The first product is the projection. -/
theorem proj_apply (x0 : (⟨S10000x128, .f32⟩ : BufTy).Contents (Elt Ideal)) (x2 : (⟨S1x128x128, .f32⟩ : BufTy).Contents (Elt Ideal))
    (k : Fin 10000) (c : Fin 128) :
    val_main_v2 (F := Ideal) x0 x2 (ix2 k c) = proj x0 x2 k c := by
  rw [val_main_v2_apply]
  unfold proj
  refine Finset.sum_congr rfl fun l _ => ?_
  have el : lidx_main_v2 (ix2 k c) l = ix2 k l := funext fun a => Fin.ext (by match a with | ⟨0, _⟩ => rfl | ⟨1, _⟩ => rfl)
  have er : ridx_main_v2 (ix2 k c) l = ix2 l c := funext fun a => Fin.ext (by match a with | ⟨0, _⟩ => rfl | ⟨1, _⟩ => rfl)
  rw [el, er, wgt_apply]

/-- The second product is the convolution. -/
theorem conv_apply (x0 : (⟨S10000x128, .f32⟩ : BufTy).Contents (Elt Ideal)) (x1 : (⟨S1x10000x10000, .f32⟩ : BufTy).Contents (Elt Ideal))
    (x2 : (⟨S1x128x128, .f32⟩ : BufTy).Contents (Elt Ideal)) (r : Fin 10000) (c : Fin 128) :
    val_main_v3 (F := Ideal) x0 x1 x2 (ix2 r c) = conv x0 x1 x2 r c := by
  rw [val_main_v3_apply]
  unfold conv
  refine Finset.sum_congr rfl fun k _ => ?_
  have el : lidx_main_v3 (ix2 r c) k = ix2 r k := funext fun a => Fin.ext (by match a with | ⟨0, _⟩ => rfl | ⟨1, _⟩ => rfl)
  have er : ridx_main_v3 (ix2 r c) k = ix2 k c := funext fun a => Fin.ext (by match a with | ⟨0, _⟩ => rfl | ⟨1, _⟩ => rfl)
  rw [el, er, adj_apply, proj_apply]

/-- The reference's result array is the convolution of its arguments. -/
theorem result_eq (x0 : (⟨S10000x128, .f32⟩ : BufTy).Contents (Elt Ideal)) (x1 : (⟨S1x10000x10000, .f32⟩ : BufTy).Contents (Elt Ideal))
    (x2 : (⟨S1x128x128, .f32⟩ : BufTy).Contents (Elt Ideal)) :
    val_main_v5 (F := Ideal) x0 x1 x2 = convArr x0 x1 x2 := by
  funext i
  obtain ⟨r, c, rfl⟩ : ∃ (r : Fin 10000) (c : Fin 128), i = ix2 r c := ⟨i 0, i 1, eq_ix2 i⟩
  rw [val_main_v5_apply, val_main_cst_apply, Fin.sum_univ_one, val_main_v4_apply, convArr_ix2]
  have e : idx_main_v4 (idx_main_v5 (ix2 r c) (0 : Fin 1)) = ix2 r c :=
    funext fun a => Fin.ext (by match a with | ⟨0, _⟩ => rfl | ⟨1, _⟩ => rfl)
  rw [e, conv_apply]
  show Ideal.ofBits .f32 0x00000000#32 + _ = _
  rw [Ideal.ofBits_zero_f32, zero_add]

end Cert.ReferenceIdeal.RefValue

end
-- ==== Proof.lean ====
/-
  A graph convolution  out = A · (x · W)  on one TensorCore, against its jnp reference, over the extended reals.

  The kernel streams the dense [10000, 10000] adjacency through five input operands of one pallas_call (the same
  array handed over five times, each operand taking every fifth 80-row slab), computes the projection x·W once, at
  the grid's first point, into a scratch buffer that every later point reads, and at each of its 25 points stores
  five 80-row products slab·(x·W) into the five bands of a 400-row output block. The reference multiplies x by W,
  then the adjacency by the result, and sums over a stack of one support. Over the extended reals rounding to bf16
  is the identity and a product into a zero accumulator is a plain sum, so both programs compute
  out(r,c) = Σ_k A(r,k) · Σ_l x(k,l) · W(l,c), grouped the same way: no law beyond 0 + z = z is used, and the
  finiteness of the inputs is never opened.

  The frames of the two kernel programs are proved from the launch of a region whose input windows share an array:
  the adjacency's full share is split among its five windows.
-/
import proofs.«100516_g74732430950510_cont_9to1_m_36_12_alg».proof.Defs
import proofs.«100516_g74732430950510_cont_9to1_m_36_12_alg».proof.Proof.Gen.Kernel
import proofs.«100516_g74732430950510_cont_9to1_m_36_12_alg».proof.Proof.Gen.KernelIdeal
import proofs.«100516_g74732430950510_cont_9to1_m_36_12_alg».proof.Proof.Gen.ReferenceIdeal
import proofs.«100516_g74732430950510_cont_9to1_m_36_12_alg».proof.Proof.Gen.Pre_finite_inputs
import proofs.«100516_g74732430950510_cont_9to1_m_36_12_alg».proof.Proof.Gen.ReferenceIdeal.Run
import proofs.«100516_g74732430950510_cont_9to1_m_36_12_alg».proof.Proof.Gen.ReferenceIdeal.Read
import proofs.«100516_g74732430950510_cont_9to1_m_36_12_alg».proof.Proof.FrameK.Launch
import proofs.«100516_g74732430950510_cont_9to1_m_36_12_alg».proof.Proof.FrameKI.Launch
import proofs.«100516_g74732430950510_cont_9to1_m_36_12_alg».proof.Proof.Final
import proofs.«100516_g74732430950510_cont_9to1_m_36_12_alg».proof.Proof.RefSide
import Idealize.ShloMosaic.Adequacy
import Idealize.ShloMosaic.Init

noncomputable section

namespace Cert.Proof

open Idealize.ShloMosaic Idealize.SL.Sem

/-- The word-level kernel runs to the end and leaves its three arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the convolution of the (agreeing) arguments in their result buffers. -/
theorem algebraic : Cert.algebraic_KernelIdeal_ReferenceIdeal := by
  intro m ρ m' ρ' _ hagree
  refine ⟨fun c => Cert.KernelIdeal.Hand.convFull m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
